-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S8192x2048 : Shape := ⟨2, ![8192, 2048]⟩
abbrev S2048x8192 : Shape := ⟨2, ![2048, 8192]⟩
abbrev S8192 : Shape := ⟨1, ![8192]⟩
abbrev S2048 : Shape := ⟨1, ![2048]⟩
abbrev S1 : Shape := ⟨1, ![1]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_
  bcast_S_S2048 : S_.BroadcastsInDim S2048 (![] : Fin 0 → Fin S2048.rank)
  reducesTo_S2048_S_d0 : S2048.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S2048 .f32) (main_arg5 : FVec F S1 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S2x2048x2048 .f32) (main_arg1 : FVec F S8192x2048 .f32) (main_arg2 : FVec F S2048x8192 .f32) (main_arg3 : FVec F S8192 .f32) (main_arg4 : FVec F S2048 .f32) (main_arg5 : FVec F S1 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x8192 .f32 := Host.absf main_arg2
  let main_cst_2 : FVec F S_ .f32 := constant S_ .f32 0x7F800000#32
  let main_v10 : FVec F S2048x8192 .f32 := broadcastInDim S2048x8192 ![] bcast_S_S2048x8192 main_cst_2
  let main_v11 : IVec S2048x8192 1 := cmpf .olt main_v9 main_v10
  let main_c_3 : IVec S_ 1 := constantI S_ 1 1#1
  let main_v12 : IVec S_ 1 := (fun x v => Host.reduce IntOp.andi x v reducesTo_S2048x8192_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_v13 main_v16
-- ==== Kernel.lean ====
abbrev S2x2048x2048 : Shape := ⟨3, ![2, 2048, 2048]⟩
abbrev S8192x2048 : Shape := ⟨2, ![8192, 2048]⟩
abbrev S2048x8192 : Shape := ⟨2, ![2048, 8192]⟩
abbrev S8192 : Shape := ⟨1, ![8192]⟩
abbrev S2048 : Shape := ⟨1, ![2048]⟩
abbrev S1 : Shape := ⟨1, ![1]⟩
abbrev S4096x2048 : Shape := ⟨2, ![4096, 2048]⟩
abbrev S1x8192 : Shape := ⟨2, ![1, 8192]⟩
abbrev S1x2048 : Shape := ⟨2, ![1, 2048]⟩
abbrev S1x1 : Shape := ⟨2, ![1, 1]⟩
abbrev S256x2048 : Shape := ⟨2, ![256, 2048]⟩
abbrev S1024x2048 : Shape := ⟨2, ![1024, 2048]⟩
abbrev S2048x1024 : Shape := ⟨2, ![2048, 1024]⟩
abbrev S1x1024 : Shape := ⟨2, ![1, 1024]⟩
abbrev S256x1024 : Shape := ⟨2, ![256, 1024]⟩

abbrev nBuf : Space → Nat
  | .hbm => 17
  | .vmem => 13
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S2048x8192, .f32⟩
  | .hbm, ⟨3, _⟩ => ⟨S8192, .f32⟩
  | .hbm, ⟨4, _⟩ => ⟨S2048, .f32⟩
  | .hbm, ⟨5, _⟩ => ⟨S1, .f32⟩
  | .hbm, ⟨6, _⟩ => ⟨S4096x2048, .f32⟩
  | .hbm, ⟨7, _⟩ => ⟨S4096x2048, .bf16⟩
  | .hbm, ⟨8, _⟩ => ⟨S8192x2048, .f32⟩
  | .hbm, ⟨9, _⟩ => ⟨S8192x2048, .bf16⟩
  | .hbm, ⟨10, _⟩ => ⟨S2048x8192, .f32⟩
  | .hbm, ⟨11, _⟩ => ⟨S2048x8192, .bf16⟩
  | .hbm, ⟨12, _⟩ => ⟨S1x8192, .f32⟩
  | .hbm, ⟨13, _⟩ => ⟨S1x2048, .f32⟩
  | .hbm, ⟨14, _⟩ => ⟨S1x1, .f32⟩
  | .hbm, ⟨15, _⟩ => ⟨S4096x2048, .f32⟩
  | .hbm, ⟨16, _⟩ => ⟨S2x2048x2048, .f32⟩
  | .local _ .vmem, ⟨0, _⟩ => ⟨S256x2048, .bf16⟩
  | .local _ .vmem, ⟨1, _⟩ => ⟨S256x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S1x1024, .f32⟩
  | .local _ .vmem, ⟨7, _⟩ => ⟨S1x1024, .f32⟩
  | .local _ .vmem, ⟨8, _⟩ => ⟨S1x2048, .f32⟩
  | .local _ .vmem, ⟨9, _⟩ => ⟨S1x1, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S2x2048x2048_S4096x2048 : S2x2048x2048.ShapeCasts S4096x2048
  bitsLt_bf16_f32 : FTy.bits .bf16 < FTy.bits .f32
  shapeCasts_S8192_S1x8192 : S8192.ShapeCasts S1x8192
  shapeCasts_S2048_S1x2048 : S2048.ShapeCasts S1x2048
  shapeCasts_S1_S1x1 : S1.ShapeCasts S1x1
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  broadcasts_S1x2048_S256x2048 : S1x2048.Broadcasts S256x2048
  shapeCasts_S4096x2048_S2x2048x2048 : S4096x2048.ShapeCasts S2x2048x2048
  dot_S256x2048_S1024x2048_S256x1024_1_1_0_0_n_n_wf : DotDims.WF S256x2048 S1024x2048 S256x1024 [1] [1] [0] [0] [] []
  dot_S256x1024_S2048x1024_S256x2048_1_1_0_0_n_n_wf : DotDims.WF S256x1024 S2048x1024 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x8192.size a
  hwx0_2 : ∀ i : grid0.Coords, EltTy.bits .bf16 = 32 ∨ (Rect.block (s := S2048x8192) S2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S4096x2048.size a
  hwx0_6 : ∀ i : grid0.Coords, EltTy.bits .f32 = 32 ∨ (Rect.block (s := S4096x2048) S256x2048.size (cc0_transform_6 i) (hinb0_6 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf

abbrev win0_0 : Pipeline.Window sig grid0 :=
  Pipeline.Window.ofSpec (Memref.whole main_v1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S8192x2048 : Shape := ⟨2, ![8192, 2048]⟩
abbrev S2048x8192 : Shape := ⟨2, ![2048, 8192]⟩
abbrev S8192 : Shape := ⟨1, ![8192]⟩
abbrev S2048 : Shape := ⟨1, ![2048]⟩
abbrev S1 : Shape := ⟨1, ![1]⟩
abbrev S2x2048x8192 : Shape := ⟨3, ![2, 2048, 8192]⟩
abbrev S1x1x8192 : Shape := ⟨3, ![1, 1, 8192]⟩
abbrev S_ : Shape := ⟨0, ![]⟩
abbrev S1x1x2048 : Shape := ⟨3, ![1, 1, 2048]⟩
abbrev S1x1x1 : Shape := ⟨3, ![1, 1, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S8192x2048, .f32⟩
  | .hbm, ⟨2, _⟩ => ⟨S2048x8192, .f32⟩
  | .hbm, ⟨3, _⟩ => ⟨S8192, .f32⟩
  | .hbm, ⟨4, _⟩ => ⟨S2048, .f32⟩
  | .hbm, ⟨5, _⟩ => ⟨S1, .f32⟩
  | .hbm, ⟨6, _⟩ => ⟨S8192x2048, .f32⟩
  | .hbm, ⟨7, _⟩ => ⟨S2048x8192, .f32⟩
  | .hbm, ⟨8, _⟩ => ⟨S2x2048x8192, .f32⟩
  | .hbm, ⟨9, _⟩ => ⟨S1x1x8192, .f32⟩
  | .hbm, ⟨10, _⟩ => ⟨S2x2048x8192, .f32⟩
  | .hbm, ⟨11, _⟩ => ⟨S2x2048x8192, .f32⟩
  | .hbm, ⟨12, _⟩ => ⟨S_, .f32⟩
  | .hbm, ⟨13, _⟩ => ⟨S2x2048x8192, .f32⟩
  | .hbm, ⟨14, _⟩ => ⟨S2x2048x8192, .f32⟩
  | .hbm, ⟨15, _⟩ => ⟨S2x2048x2048, .f32⟩
  | .hbm, ⟨16, _⟩ => ⟨S1x1x2048, .f32⟩
  | .hbm, ⟨17, _⟩ => ⟨S2x2048x2048, .f32⟩
  | .hbm, ⟨18, _⟩ => ⟨S2x2048x2048, .f32⟩
  | .hbm, ⟨19, _⟩ => ⟨S1x1x1, .f32⟩
  | .hbm, ⟨20, _⟩ => ⟨S2x2048x2048, .f32⟩
  | .hbm, ⟨21, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S8192_S1x1x8192_2 : S8192.BroadcastsInDim S1x1x8192 (![2] : Fin 1 → Fin S1x1x8192.rank)
  bcast_S1x1x8192_S2x2048x8192_0_1_2 : S1x1x8192.BroadcastsInDim S2x2048x8192 (![0, 1, 2] : Fin 3 → Fin S2x2048x8192.rank)
  bcast_S_S2x2048x8192 : S_.BroadcastsInDim S2x2048x8192 (![] : Fin 0 → Fin S2x2048x8192.rank)
  bcast_S2048_S1x1x2048_2 : S2048.BroadcastsInDim S1x1x2048 (![2] : Fin 1 → Fin S1x1x2048.rank)
  bcast_S1x1x2048_S2x2048x2048_0_1_2 : S1x1x2048.BroadcastsInDim S2x2048x2048 (![0, 1, 2] : Fin 3 → Fin S2x2048x2048.rank)
  bcast_S1_S1x1x1_2 : S1.BroadcastsInDim S1x1x1 (![2] : Fin 1 → Fin S1x1x1.rank)
  bcast_S1x1x1_S2x2048x2048_0_1_2 : S1x1x1.BroadcastsInDim S2x2048x2048 (![0, 1, 2] : Fin 3 → Fin S2x2048x2048.rank)
  dot_S2x2048x2048_S8192x2048_S2x2048x8192_2_1_01_0_n_n_wf : DotDims.WF S2x2048x2048 S8192x2048 S2x2048x8192 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.MlpSpec.lean ====
/-
  The function both programs compute, and the two facts about finite sums that join them.

  A two-layer perceptron whose weight matrices enter only through their signs. For a row `(b, s)` of the
  activations `X`, hidden unit `h` is `max ((∑ₖ X(b,s,k) · sign Wu(h,k)) · us(h)) 0`, and output column `d` is
  `((∑ₕ hidden(h) · sign Wd(d,h)) · ds(d)) · os(0)`: everything on the extended reals, where sums and products
  are commutative and associative (no distributivity is needed below, so no finiteness either).

  One side forms the sum over the 8192 hidden units at once; the other forms it tile by tile — eight tiles of 1024
  hidden units — keeping a running total that is reset to `0 +` the first tile and then extended by one tile at a
  time. `sum_tiles` says the eight tile sums add up to the whole sum; `running_total` says what such a running
  total holds after any number of steps.
-/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open Idealize.ShloMosaic Idealize.ShloMosaic.ValueIdx
open scoped BigOperators

namespace Cert.TernaryMlp

/-- Hidden unit `h` of row `(b, s)`, times the sign of the down weight that carries it to column `d`: the `h`-th
    summand of output entry `(b, s, d)`. -/
def term (X : (⟨3, ![2, 2048, 2048]⟩ : Shape).Idx → EReal) (Wu : (⟨2, ![8192, 2048]⟩ : Shape).Idx → EReal)
    (Wd : (⟨2, ![2048, 8192]⟩ : Shape).Idx → EReal) (us : (⟨1, ![8192]⟩ : Shape).Idx → EReal)
    (b : Fin 2) (s : Fin 2048) (d : Fin 2048) (h : Fin 8192) : EReal :=
  max ((∑ k : Fin 2048, X (ix3 b s k) * Ideal.sign (Wu (ix2 h k))) * us (ix1 h)) 0 * Ideal.sign (Wd (ix2 d h))

/-- The whole result: the sum of the 8192 summands, scaled by the column's scale and then by the global scale. -/
def out (X : (⟨3, ![2, 2048, 2048]⟩ : Shape).Idx → EReal) (Wu : (⟨2, ![8192, 2048]⟩ : Shape).Idx → EReal)
    (Wd : (⟨2, ![2048, 8192]⟩ : Shape).Idx → EReal) (us : (⟨1, ![8192]⟩ : Shape).Idx → EReal)
    (ds : (⟨1, ![2048]⟩ : Shape).Idx → EReal) (os : (⟨1, ![1]⟩ : Shape).Idx → EReal) :
    (⟨3, ![2, 2048, 2048]⟩ : Shape).Idx → EReal :=
  fun i => ((∑ h : Fin 8192, term X Wu Wd us (i 0) (i 1) (i 2) h) * ds (ix1 (i 2))) * os (ix1 0)

/-- Hidden unit `i` of tile `j`, as one of the 8192. -/
abbrev unitOf (j : Fin 8) (i : Fin 1024) : Fin 8192 := finProdFinEquiv (j, i)

theorem unitOf_val (j : Fin 8) (i : Fin 1024) : (unitOf j i).val = i.val + 1024 * j.val := rfl

/-- The eight tile sums add up to the sum over all hidden units. -/
theorem sum_tiles (f : Fin 8192 → EReal) : ∑ j : Fin 8, ∑ i : Fin 1024, f (unitOf j i) = ∑ h : Fin 8192, f h := by
  rw [← Fintype.sum_prod_type (f := fun x : Fin 8 × Fin 1024 => f (finProdFinEquiv x))]
  exact Equiv.sum_comp (finProdFinEquiv (m := 8) (n := 1024)) f

/-- A total `a` kept over steps `0, 1, 2, …` that restarts at `0 + g n` on every eighth step and otherwise adds
    `g n` to what the step before left holds, after step `n`, the sum of `g` from the last restart up to `n`. -/
theorem running_total (N : ℕ) (a : (n : ℕ) → n < N → EReal) (g : ℕ → EReal)
    (h0 : ∀ n (h : n < N), n % 8 = 0 → a n h = 0 + g n)
    (hs : ∀ n (h : n + 1 < N), (n + 1) % 8 ≠ 0 → a (n + 1) h = a n (Nat.lt_of_succ_lt h) + g (n + 1)) :
    ∀ n (h : n < N), a n h = ∑ j ∈ Finset.range (n % 8 + 1), g (n - n % 8 + j) := by
  intro n
  induction n with
  | zero =>
    intro h
    rw [h0 0 h rfl, zero_add]
    simp
  | succ n ih =>
    intro h
    by_cases hm : (n + 1) % 8 = 0
    · rw [h0 (n + 1) h hm, zero_add, hm]
      simp
    · rw [hs n h hm, ih (Nat.lt_of_succ_lt h)]
      have e1 : (n + 1) % 8 = n % 8 + 1 := by omega
      have e2 : n + 1 - (n % 8 + 1) = n - n % 8 := by omega
      rw [e1, e2, Finset.sum_range_succ _ (n % 8 + 1)]
      congr 2
      omega

/-- After the eighth step of a round the total is the sum of the round's eight contributions. -/
theorem round_total (g : ℕ → EReal) (n : ℕ) (h7 : n % 8 = 7) :
    ∑ j ∈ Finset.range (n % 8 + 1), g (n - n % 8 + j) = ∑ j : Fin 8, g (n - 7 + j.val) := by
  rw [h7, Finset.sum_range]

end Cert.TernaryMlp

end
-- ==== Proof.MlpReference.lean ====
/-
  The reference computes `Cert.TernaryMlp.out`.

  Its last stage read at an index `(b, s, d)` is the product of three factors: the contraction over the 8192 hidden
  units of `max (pre-activation · up scale) 0` against the signs of the down weights, the down scale at `d`
  (a vector broadcast along the two leading axes), and the single output scale (broadcast everywhere). The
  pre-activation is the contraction over the 2048 input features of the activations against the signs of the up
  weights. Each stage is read where the one after it needs it; the indices the generated lemmas compose are the
  coordinate triples and pairs of the specification.
-/
import proofs.«129542_j51934744543462_1_alg».proof.Proof.Gen.ReferenceIdeal.Read
import proofs.«129542_j51934744543462_1_alg».proof.Proof.MlpSpec

noncomputable section

namespace Cert.TernaryMlp.Reference

open Cert.ReferenceIdeal Cert.ReferenceIdeal.Gen Cert.ReferenceIdeal.Read
open Idealize.ShloMosaic Idealize.ShloMosaic.ValueIdx Cert.TernaryMlp

/-- The activation entry a hidden unit's contraction reads. -/
theorem x_index (i : S2x2048x2048.Idx) (h : Fin 8192) (k : Fin 2048) :
    lidx_main_v2 (lidx_main_v7 i h) k = ix3 (i 0) (i 1) k :=
  funext fun a => by match a with | ⟨0, _⟩ => rfl | ⟨1, _⟩ => rfl | ⟨2, _⟩ => rfl

/-- The up weight it is multiplied with. -/
theorem up_index (i : S2x2048x2048.Idx) (h : Fin 8192) (k : Fin 2048) :
    ridx_main_v2 (lidx_main_v7 i h) k = ix2 h k :=
  funext fun a => by match a with | ⟨0, _⟩ => rfl | ⟨1, _⟩ => rfl

/-- The up scale of hidden unit `h`. -/
theorem up_scale_index (i : S2x2048x2048.Idx) (h : Fin 8192) :
    idx_main_v3 (idx_main_v4 (lidx_main_v7 i h)) = ix1 h :=
  funext fun a => by match a with | ⟨0, _⟩ => rfl

/-- The down weight that carries hidden unit `h` to column `d`. -/
theorem down_index (i : S2x2048x2048.Idx) (h : Fin 8192) : ridx_main_v7 i h = ix2 (i 2) h :=
  funext fun a => by match a with | ⟨0, _⟩ => rfl | ⟨1, _⟩ => rfl

/-- The down scale of column `d`. -/
theorem down_scale_index (i : S2x2048x2048.Idx) : idx_main_v8 (idx_main_v9 i) = ix1 (i 2) :=
  funext fun a => by match a with | ⟨0, _⟩ => rfl

/-- The output scale's one entry. -/
theorem out_scale_index (i : S2x2048x2048.Idx) : idx_main_v11 (idx_main_v12 i) = ix1 (0 : Fin 1) :=
  funext fun a => by match a with | ⟨0, _⟩ => rfl

/-- The reference's result, as a function of the six argument arrays, is the specification. -/
theorem result_eq (x0 : (⟨S2x2048x2048, .f32⟩ : BufTy).Contents (Elt Ideal)) (x1 : (⟨S8192x2048, .f32⟩ : BufTy).Contents (Elt Ideal))
    (x2 : (⟨S2048x8192, .f32⟩ : BufTy).Contents (Elt Ideal)) (x3 : (⟨S8192, .f32⟩ : BufTy).Contents (Elt Ideal))
    (x4 : (⟨S2048, .f32⟩ : BufTy).Contents (Elt Ideal)) (x5 : (⟨S1, .f32⟩ : BufTy).Contents (Elt Ideal)) :
    val_main_v13 (F := Ideal) x0 x1 x2 x3 x4 x5 = out x0 x1 x2 x3 x4 x5 := by
  funext i
  rw [val_main_v13_apply, val_main_v10_apply, val_main_v7_apply, val_main_v9_apply, val_main_v8_apply,
    val_main_v12_apply, val_main_v11_apply, down_scale_index, out_scale_index]
  simp only [val_main_v6_apply, val_main_v5_apply, val_main_v2_apply, val_main_v4_apply, val_main_v3_apply,
    val_main_call0_v0_apply, val_main_call0_cst_apply, val_main_v0_apply, val_main_v1_apply,
    x_index, up_index, up_scale_index, down_index,
    Ideal.mulf_def, Ideal.maximumf_def, Ideal.hostUnary_sign_def, Ideal.ofBits_def, Ideal.ofBits_zero_f32]
  rfl

end Cert.TernaryMlp.Reference

end
-- ==== Proof.MlpPayload.lean ====
/-
  What one grid point computes, entry by entry, on the extended reals.

  A point holds a block of 256 activation rows `x`, the up weights `wu` of one tile of 1024 hidden units (already
  replaced by their signs), the tile's up scales `us`, the down weights `wd` of the tile (signs again) and the
  running total `acc`. It adds to entry `(p, q)` of the total the tile's contribution
      ∑ₕ max ((∑ₖ x(p,k) · wu(h,k)) · us(h)) 0 · wd(q,h),
  the inner sum over the 2048 input features and the outer one over the tile's 1024 hidden units: two matrix
  products into a zero accumulator, which at the ideal instance are these plain sums. The narrowing of the hidden
  activations to sixteen bits is the identity there. The closing step multiplies entry `(p, q)` of the total by the
  product of the column scale `ds(q)` and the single output scale.
-/
import proofs.«129542_j51934744543462_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.TernaryMlp.Payload

open Cert.KernelIdeal Cert.KernelIdeal.Gen
open Idealize.ShloMosaic Idealize.ShloMosaic.ValueIdx
open scoped BigOperators

/-! ## The up projection: rows of `x` against rows of `wu` -/

theorem up_lhs_0 (i : S256x1024.Idx) (q : dot_S256x2048_S1024x2048_S256x1024_1_1_0_0_n_n.contr.Idx) :
    (dot_S256x2048_S1024x2048_S256x1024_1_1_0_0_n_n.lhsIdx i q 0).val = (i 0).val := by
  unfold DotDims.lhsIdx
  rw [dif_neg (show ¬(0 : Fin S256x2048.rank) ∈ dot_S256x2048_S1024x2048_S256x1024_1_1_0_0_n_n.lhsBatch by decide), dif_pos (show (0 : Fin S256x2048.rank) ∈ dot_S256x2048_S1024x2048_S256x1024_1_1_0_0_n_n.lhsNonContracting by decide)]
  rfl
theorem up_lhs_1 (i : S256x1024.Idx) (q : dot_S256x2048_S1024x2048_S256x1024_1_1_0_0_n_n.contr.Idx) :
    (dot_S256x2048_S1024x2048_S256x1024_1_1_0_0_n_n.lhsIdx i q 1).val = (q ⟨0, by decide⟩).val :=
  dot_S256x2048_S1024x2048_S256x1024_1_1_0_0_n_n.lhsIdx_val_of_single rfl i q
theorem up_rhs_0 (i : S256x1024.Idx) (q : dot_S256x2048_S1024x2048_S256x1024_1_1_0_0_n_n.contr.Idx) :
    (dot_S256x2048_S1024x2048_S256x1024_1_1_0_0_n_n.rhsIdx i q 0).val = (i 1).val := by
  unfold DotDims.rhsIdx
  rw [dif_neg (show ¬(0 : Fin S1024x2048.rank) ∈ dot_S256x2048_S1024x2048_S256x1024_1_1_0_0_n_n.rhsBatch by decide), dif_pos (show (0 : Fin S1024x2048.rank) ∈ dot_S256x2048_S1024x2048_S256x1024_1_1_0_0_n_n.rhsNonContracting by decide)]
  rfl
theorem up_rhs_1 (i : S256x1024.Idx) (q : dot_S256x2048_S1024x2048_S256x1024_1_1_0_0_n_n.contr.Idx) :
    (dot_S256x2048_S1024x2048_S256x1024_1_1_0_0_n_n.rhsIdx i q 1).val = (q ⟨0, by decide⟩).val :=
  dot_S256x2048_S1024x2048_S256x1024_1_1_0_0_n_n.rhsIdx_val_of_single rfl i q

/-- Entry `(p, h)` of the up projection: row `p` of `x` against row `h` of `wu`, over the 2048 input features. -/
theorem up_apply (x : FVec Ideal S256x2048 .bf16) (wu : FVec Ideal S1024x2048 .bf16) (p : Fin 256) (h : Fin 1024) :
    matmul dot_S256x2048_S1024x2048_S256x1024_1_1_0_0_n_n none x wu (constant S256x1024 .f32 0x00000000#32) (ix2 p h)
      = ∑ k : Fin 2048, x (ix2 p k) * wu (ix2 h k) := by
  simp only [matmul]
  rw [Ideal.matmul_constant_zero_apply, ← Equiv.sum_comp (contrEquiv1 dot_S256x2048_S1024x2048_S256x1024_1_1_0_0_n_n 2048 rfl rfl).symm]
  refine Finset.sum_congr rfl fun k _ => ?_
  have hk := contrEquiv1_symm_val dot_S256x2048_S1024x2048_S256x1024_1_1_0_0_n_n 2048 rfl rfl k
  have el : dot_S256x2048_S1024x2048_S256x1024_1_1_0_0_n_n.lhsIdx (ix2 p h) ((contrEquiv1 dot_S256x2048_S1024x2048_S256x1024_1_1_0_0_n_n 2048 rfl rfl).symm k) = ix2 p k := funext fun a => Fin.ext (by
    match a with
    | ⟨0, _⟩ => exact up_lhs_0 _ _
    | ⟨1, _⟩ => exact (up_lhs_1 _ _).trans hk)
  have er : dot_S256x2048_S1024x2048_S256x1024_1_1_0_0_n_n.rhsIdx (ix2 p h) ((contrEquiv1 dot_S256x2048_S1024x2048_S256x1024_1_1_0_0_n_n 2048 rfl rfl).symm k) = ix2 h k := funext fun a => Fin.ext (by
    match a with
    | ⟨0, _⟩ => exact up_rhs_0 _ _
    | ⟨1, _⟩ => exact (up_rhs_1 _ _).trans hk)
  rw [el, er]

/-! ## The down projection: rows of the hidden activations against rows of `wd` -/

theorem down_lhs_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem down_lhs_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem down_rhs_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem down_rhs_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q

/-- Entry `(p, q)` of the down projection: row `p` of the hidden activations against row `q` of `wd`, over the
    tile's 1024 hidden units. -/
theorem down_apply (a : FVec Ideal S256x1024 .bf16) (wd : FVec Ideal S2048x1024 .bf16) (p : Fin 256) (q : Fin 2048) :
    matmul dot_S256x1024_S2048x1024_S256x2048_1_1_0_0_n_n none a wd (constant S256x2048 .f32 0x00000000#32) (ix2 p q)
      = ∑ h : Fin 1024, a (ix2 p h) * wd (ix2 q h) := by
  simp only [matmul]
  rw [Ideal.matmul_constant_zero_apply, ← Equiv.sum_comp (contrEquiv1 dot_S256x1024_S2048x1024_S256x2048_1_1_0_0_n_n 1024 rfl rfl).symm]
  refine Finset.sum_congr rfl fun k _ => ?_
  have hk := contrEquiv1_symm_val dot_S256x1024_S2048x1024_S256x2048_1_1_0_0_n_n 1024 rfl rfl k
  have el : dot_S256x1024_S2048x1024_S256x2048_1_1_0_0_n_n.lhsIdx (ix2 p q) ((contrEquiv1 dot_S256x1024_S2048x1024_S256x2048_1_1_0_0_n_n 1024 rfl rfl).symm k) = ix2 p k := funext fun a => Fin.ext (by
    match a with
    | ⟨0, _⟩ => exact down_lhs_0 _ _
    | ⟨1, _⟩ => exact (down_lhs_1 _ _).trans hk)
  have er : dot_S256x1024_S2048x1024_S256x2048_1_1_0_0_n_n.rhsIdx (ix2 p q) ((contrEquiv1 dot_S256x1024_S2048x1024_S256x2048_1_1_0_0_n_n 1024 rfl rfl).symm k) = ix2 q k := funext fun a => Fin.ext (by
    match a with
    | ⟨0, _⟩ => exact down_rhs_0 _ _
    | ⟨1, _⟩ => exact (down_rhs_1 _ _).trans hk)
  rw [el, er]

/-! ## The scales: a one-row matrix repeated along the rows -/

/-- The tile's up scales, repeated for each of the 256 rows, read at `(p, h)`: the scale of hidden unit `h`. -/
theorem up_scale_apply (us : FVec Ideal S1x1024 .f32) (p : Fin 256) (h : Fin 1024) :
    broadcastTo S256x1024 us Facts₀.broadcasts_S1x1024_S256x1024 (ix2 p h) = us (ix2 (0 : Fin 1) h) :=
  broadcastTo_apply us _ (ix2 p h) (ix2 (0 : Fin 1) h) (fun a => match a with
    | ⟨0, _⟩ => by show 0 = if (1 : Nat) = 1 then 0 else _; rw [if_pos rfl]
    | ⟨1, _⟩ => by show h.val = if (1024 : Nat) = 1 then 0 else h.val; rw [if_neg (by decide)])

/-- The column scales, repeated for each of the 256 rows, read at `(p, q)`: the scale of column `q`. -/
theorem col_scale_apply (cs : FVec Ideal S1x2048 .f32) (p : Fin 256) (q : Fin 2048) :
    broadcastTo S256x2048 cs Facts₀.broadcasts_S1x2048_S256x2048 (ix2 p q) = cs (ix2 (0 : Fin 1) q) :=
  broadcastTo_apply cs _ (ix2 p q) (ix2 (0 : Fin 1) q) (fun a => match a with
    | ⟨0, _⟩ => by show 0 = if (1 : Nat) = 1 then 0 else _; rw [if_pos rfl]
    | ⟨1, _⟩ => by show q.val = if (2048 : Nat) = 1 then 0 else q.val; rw [if_neg (by decide)])

/-! ## The three stored values -/

/-- The reset stores zero everywhere. -/
theorem reset_apply (j : S256x2048.Idx) : k0_pay1 (F := Ideal) j = 0 := by
  unfold k0_pay1
  rw [shapeCast_self]
  exact Ideal.ofBits_zero_f32

/-- The accumulation step at `(p, q)`: the total so far plus the tile's contribution. -/
theorem step_apply (x : Vec Ideal S256x2048 .bf16) (wu : Vec Ideal S1024x2048 .bf16) (us : Vec Ideal S1x1024 .f32)
    (wd : Vec Ideal S2048x1024 .bf16) (acc : Vec Ideal S256x2048 .f32) (p : Fin 256) (q : Fin 2048) :
    k0_pay2 (F := Ideal) x wu us wd acc (ix2 p q)
      = acc (ix2 p q) + ∑ h : Fin 1024,
          max ((∑ k : Fin 2048, x (ix2 p k) * wu (ix2 h k)) * us (ix2 (0 : Fin 1) h)) 0 * wd (ix2 q h) := by
  unfold k0_pay2
  simp only [shapeCast_self]
  rw [addf_apply, down_apply]
  refine congrArg (acc (ix2 p q) + ·) (Finset.sum_congr rfl fun h _ => ?_)
  rw [truncf_apply, maximumf_apply, mulf_apply, up_apply, up_scale_apply, broadcast_apply]
  show max _ (Ideal.ofBits .f32 0x00000000#32) * _ = _
  rw [Ideal.ofBits_zero_f32]

/-- The closing step at `(p, q)`: the total times the product of the column scale and the output scale. -/
theorem close_apply (cs : Vec Ideal S1x2048 .f32) (os : Vec Ideal S1x1 .f32) (acc : Vec Ideal S256x2048 .f32)
    (p : Fin 256) (q : Fin 2048) :
    k0_pay3 (F := Ideal) cs os acc (ix2 p q) = acc (ix2 p q) * (cs (ix2 (0 : Fin 1) q) * os (ix2 (0 : Fin 1) (0 : Fin 1))) := by
  unfold k0_pay3
  simp only [shapeCast_self]
  rw [mulf_apply, col_scale_apply, mulf_apply, broadcast_apply]
  have e : extractAt ![0, 0] os Facts₀.inpos_S1x1_p0_0 = os (ix2 (0 : Fin 1) (0 : Fin 1)) :=
    congrArg os (funext fun a => by match a with | ⟨0, _⟩ => rfl | ⟨1, _⟩ => rfl)
  rw [e]

end Cert.TernaryMlp.Payload

end
-- ==== Proof.MlpPieces.lean ====
/-
  What each kind of grid point leaves behind, as values of what it found.

  A point is of one of three kinds, by its position `j` among the eight tiles of hidden units of its row block.
  At `j = 0` the running total is first overwritten with zeros and then, read back, extended by the tile's
  contribution: it ends at the step's value over the zero block. At `0 < j < 7` it ends at the step's value over
  what the point before left. At `j = 7` the same, and the output block is written: the closing value of the total
  just stored (read back from where it was stored) and of the two scale blocks. Every load and store goes through a
  whole buffer, so a load reads the buffer's contents and the last store decides what a buffer holds.
-/
import proofs.«129542_j51934744543462_1_alg».proof.Proof.Gen.KernelIdeal.Frame
import Idealize.ShloMosaic.Lib.Pipeline.Value
import Idealize.ShloMosaic.Lib.Tactic

noncomputable section

namespace Cert.TernaryMlp.Pieces

open Cert.KernelIdeal Cert.KernelIdeal.Gen
open Idealize.ShloMosaic Idealize.ShloMosaic.TcCoe Idealize.SL.Sem Idealize.ShloMosaic.Tactic

variable {F : FTy → Type} [FloatOps F]

/-- The offsets of a whole-buffer access, spelt as the constant zero. -/
theorem hz : (![0, 0] : Fin 2 → Nat) = fun _ => 0 := funext fun a => by fin_cases a <;> rfl

/-- First tile of a row block: the total restarts from zero. -/
theorem total_first (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1x2048 .f32) (harg6 : arg6.IsWhole) (arg7 : Memref sig .tc .vmem S1x1 .f32) (harg7 : arg7.IsWhole) (arg8 : Memref sig .tc .vmem S256x2048 .f32) (harg8 : arg8.IsWhole) (arg9 : Memref sig .tc .vmem S256x2048 .f32) (harg9 : arg9.IsWhole) (hc0 : cond0_0 i) (hc1 : ¬cond0_1 i) (x0 : Vec F S256x2048 .bf16) (x1 : Vec F S1024x2048 .bf16) (x2 : Vec F S2048x1024 .bf16) (x3 : Vec F S1x1024 .f32) (x4 : Vec F S1x2048 .f32) (x5 : Vec F S1x1 .f32) :
    sout0_A_0 c i arg2 harg2 arg3 harg3 arg4 harg4 arg5 harg5 arg6 harg6 arg7 harg7 arg8 harg8 arg9 harg9 hc0 hc1 x0 x1 x2 x3 x4 x5 = k0_pay2 x0 x1 x3 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S256x2048) hz]
  simp only [View.readAt_eq_ld, harg2.read_unread, harg3.read_unread, harg4.read_unread, harg5.read_unread, harg6.read_unread, harg7.read_unread, harg9.read_unread, View.ld_unit_zero (S := S256x2048) hz, View.ld_unit_zero (S := S1024x2048) hz, View.ld_unit_zero (S := S2048x1024) hz, View.ld_unit_zero (S := S1x1024) hz, View.ld_unit_zero (S := S1x2048) hz, View.ld_unit_zero (S := S1x1) hz, View.readCov_unit_zero (S := S256x2048) _ hz]

/-- A middle tile: the total is extended. -/
theorem total_middle (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1x2048 .f32) (harg6 : arg6.IsWhole) (arg7 : Memref sig .tc .vmem S1x1 .f32) (harg7 : arg7.IsWhole) (arg8 : Memref sig .tc .vmem S256x2048 .f32) (harg8 : arg8.IsWhole) (arg9 : Memref sig .tc .vmem S256x2048 .f32) (harg9 : arg9.IsWhole) (hc0 : ¬cond0_0 i) (hc1 : ¬cond0_1 i) (x0 : Vec F S256x2048 .bf16) (x1 : Vec F S1024x2048 .bf16) (x2 : Vec F S2048x1024 .bf16) (x3 : Vec F S1x1024 .f32) (x4 : Vec F S1x2048 .f32) (x5 : Vec F S1x1 .f32) (xs0 : Vec F S256x2048 .f32) :
    sout0_B_0 c i arg2 harg2 arg3 harg3 arg4 harg4 arg5 harg5 arg6 harg6 arg7 harg7 arg8 harg8 arg9 harg9 hc0 hc1 x0 x1 x2 x3 x4 x5 xs0 = k0_pay2 x0 x1 x3 x2 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg9.read_unread, View.ld_unit_zero (S := S256x2048) hz, View.ld_unit_zero (S := S1024x2048) hz, View.ld_unit_zero (S := S2048x1024) hz, View.ld_unit_zero (S := S1x1024) hz, View.ld_unit_zero (S := S1x2048) hz, View.ld_unit_zero (S := S1x1) hz]

/-- The last tile: the total is extended once more, -/
theorem total_last (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1x2048 .f32) (harg6 : arg6.IsWhole) (arg7 : Memref sig .tc .vmem S1x1 .f32) (harg7 : arg7.IsWhole) (arg8 : Memref sig .tc .vmem S256x2048 .f32) (harg8 : arg8.IsWhole) (arg9 : Memref sig .tc .vmem S256x2048 .f32) (harg9 : arg9.IsWhole) (hc0 : ¬cond0_0 i) (hc1 : cond0_1 i) (x0 : Vec F S256x2048 .bf16) (x1 : Vec F S1024x2048 .bf16) (x2 : Vec F S2048x1024 .bf16) (x3 : Vec F S1x1024 .f32) (x4 : Vec F S1x2048 .f32) (x5 : Vec F S1x1 .f32) (xs0 : Vec F S256x2048 .f32) :
    sout0_C_0 c i arg2 harg2 arg3 harg3 arg4 harg4 arg5 harg5 arg6 harg6 arg7 harg7 arg8 harg8 arg9 harg9 hc0 hc1 x0 x1 x2 x3 x4 x5 xs0 = k0_pay2 x0 x1 x3 x2 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg9.read_unread, View.ld_unit_zero (S := S256x2048) hz, View.ld_unit_zero (S := S1024x2048) hz, View.ld_unit_zero (S := S2048x1024) hz, View.ld_unit_zero (S := S1x1024) hz, View.ld_unit_zero (S := S1x2048) hz, View.ld_unit_zero (S := S1x1) hz]

/-- and the output block is the closing value of that final total. -/
theorem block_last (c : Dev nD) (i : grid0.Coords) (arg2 : Memref sig .tc .vmem S256x2048 .bf16) (harg2 : arg2.IsWhole) (arg3 : Memref sig .tc .vmem S1024x2048 .bf16) (harg3 : arg3.IsWhole) (arg4 : Memref sig .tc .vmem S2048x1024 .bf16) (harg4 : arg4.IsWhole) (arg5 : Memref sig .tc .vmem S1x1024 .f32) (harg5 : arg5.IsWhole) (arg6 : Memref sig .tc .vmem S1x2048 .f32) (harg6 : arg6.IsWhole) (arg7 : Memref sig .tc .vmem S1x1 .f32) (harg7 : arg7.IsWhole) (arg8 : Memref sig .tc .vmem S256x2048 .f32) (harg8 : arg8.IsWhole) (arg9 : Memref sig .tc .vmem S256x2048 .f32) (harg9 : arg9.IsWhole) (hc0 : ¬cond0_0 i) (hc1 : cond0_1 i) (x0 : Vec F S256x2048 .bf16) (x1 : Vec F S1024x2048 .bf16) (x2 : Vec F S2048x1024 .bf16) (x3 : Vec F S1x1024 .f32) (x4 : Vec F S1x2048 .f32) (x5 : Vec F S1x1 .f32) (xs0 : Vec F S256x2048 .f32) :
    out0_C_6 c i arg2 harg2 arg3 harg3 arg4 harg4 arg5 harg5 arg6 harg6 arg7 harg7 arg8 harg8 arg9 harg9 hc0 hc1 x0 x1 x2 x3 x4 x5 xs0 = k0_pay3 x4 x5 (k0_pay2 x0 x1 x3 x2 xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg9.read_unread, View.ld_unit_zero (S := S256x2048) hz, View.ld_unit_zero (S := S1024x2048) hz, View.ld_unit_zero (S := S2048x1024) hz, View.ld_unit_zero (S := S1x1024) hz, View.ld_unit_zero (S := S1x2048) hz, View.ld_unit_zero (S := S1x1) hz, View.readCov_unit_zero (S := S256x2048) _ hz]

end Cert.TernaryMlp.Pieces

end
-- ==== Proof.MlpBlocks.lean ====
/-
  What the kernel's windows read, in terms of the six argument arrays.

  Before the kernel runs, the activations `[2, 2048, 2048]` are laid out as a `[4096, 2048]` matrix (row
  `b · 2048 + s` is row `(b, s)`), both weight matrices are replaced by their signs, and each scale vector becomes
  a one-row matrix; the narrowing of activations and signs to sixteen bits changes nothing at the ideal instance.
  Grid point `t` is row block `t / 8` and hidden tile `t % 8`: its activation block is rows
  `(t / 8) · 256 …` of the matrix, its up-weight block rows `(t % 8) · 1024 …` of the up signs, its down-weight
  block columns `(t % 8) · 1024 …` of the down signs, its up-scale block the same columns of the up scales; the
  column scales and the output scale are read whole at every point.
-/
import proofs.«129542_j51934744543462_1_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal.Laws

noncomputable section

namespace Cert.TernaryMlp.Blocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## The arrays the windows are cut from -/

/-- The activation matrix: row `b · 2048 + s` is row `(b, s)` of the activations. -/
theorem x_array (c : Dev nD) (r : Fin 4096) (k : Fin 2048) (b : Fin 2) (s : Fin 2048) (hr : r.val = b.val * 2048 + s.val) :
    (V m c main_v1 : FVec Ideal S4096x2048 .bf16) (ix2 r k) = m ((c : Thread nD τ).loc main_arg0) (ix3 b s k) := by
  have e : (V m c main_v1 : FVec Ideal S4096x2048 .bf16)
      = (truncf (F := Ideal) .bf16 (shapeCast S4096x2048 (m ((c : Thread nD τ).loc main_arg0)) Facts₀.shapeCasts_S2x2048x2048_S4096x2048) Facts₀.bitsLt_bf16_f32 : FVec Ideal S4096x2048 .bf16) := by
    show StableHlo.after hostOps0 (fun b => m (c, b)) (Proc.devRef .tc main_v1) = _
    after_results; rfl
  rw [e, truncf_apply]
  refine shapeCast_apply _ _ (ix2 r k) (ix3 b s k) ?_
  rw [Shape.rowMajor_val_two, Shape.rowMajor_val_three]
  show (b.val * 2048 + s.val) * 2048 + k.val = r.val * 2048 + k.val
  rw [hr]

/-- The up weights enter as their signs. -/
theorem up_array (c : Dev nD) (j : S8192x2048.Idx) :
    (V m c main_v3 : FVec Ideal S8192x2048 .bf16) j = Ideal.sign (m ((c : Thread nD τ).loc main_arg1) j) := by
  have e : (V m c main_v3 : FVec Ideal S8192x2048 .bf16)
      = (truncf (F := Ideal) .bf16 (Host.sign (m ((c : Thread nD τ).loc main_arg1)) : FVec Ideal S8192x2048 .f32) Facts₀.bitsLt_bf16_f32 : FVec Ideal S8192x2048 .bf16) := by
    show StableHlo.after hostOps0 (fun b => m (c, b)) (Proc.devRef .tc main_v3) = _
    after_results
  rw [e]; rfl

/-- The down weights enter as their signs. -/
theorem down_array (c : Dev nD) (j : S2048x8192.Idx) :
    (V m c main_v5 : FVec Ideal S2048x8192 .bf16) j = Ideal.sign (m ((c : Thread nD τ).loc main_arg2) j) := by
  have e : (V m c main_v5 : FVec Ideal S2048x8192 .bf16)
      = (truncf (F := Ideal) .bf16 (Host.sign (m ((c : Thread nD τ).loc main_arg2)) : FVec Ideal S2048x8192 .f32) Facts₀.bitsLt_bf16_f32 : FVec Ideal S2048x8192 .bf16) := by
    show StableHlo.after hostOps0 (fun b => m (c, b)) (Proc.devRef .tc main_v5) = _
    after_results
  rw [e]; rfl

/-- The up scales as a one-row matrix. -/
theorem up_scale_array (c : Dev nD) (h : Fin 8192) :
    (V m c main_v6 : FVec Ideal S1x8192 .f32) (ix2 (0 : Fin 1) h) = m ((c : Thread nD τ).loc main_arg3) (ix1 h) := by
  have e : (V m c main_v6 : FVec Ideal S1x8192 .f32)
      = shapeCast S1x8192 (m ((c : Thread nD τ).loc main_arg3)) Facts₀.shapeCasts_S8192_S1x8192 := by
    show StableHlo.after hostOps0 (fun b => m (c, b)) (Proc.devRef .tc main_v6) = _
    after_results; rfl
  rw [e]
  refine shapeCast_apply _ _ (ix2 (0 : Fin 1) h) (ix1 h) ?_
  rw [Shape.rowMajor_val_two, Shape.rowMajor_val_one]
  show h.val = 0 * 8192 + h.val
  omega

/-- The column scales as a one-row matrix. -/
theorem col_scale_array (c : Dev nD) (q : Fin 2048) :
    (V m c main_v7 : FVec Ideal S1x2048 .f32) (ix2 (0 : Fin 1) q) = m ((c : Thread nD τ).loc main_arg4) (ix1 q) := by
  have e : (V m c main_v7 : FVec Ideal S1x2048 .f32)
      = shapeCast S1x2048 (m ((c : Thread nD τ).loc main_arg4)) Facts₀.shapeCasts_S2048_S1x2048 := by
    show StableHlo.after hostOps0 (fun b => m (c, b)) (Proc.devRef .tc main_v7) = _
    after_results; rfl
  rw [e]
  refine shapeCast_apply _ _ (ix2 (0 : Fin 1) q) (ix1 q) ?_
  rw [Shape.rowMajor_val_two, Shape.rowMajor_val_one]
  show q.val = 0 * 2048 + q.val
  omega

/-- The output scale as a one-entry matrix. -/
theorem out_scale_array (c : Dev nD) :
    (V m c main_v8 : FVec Ideal S1x1 .f32) (ix2 (0 : Fin 1) (0 : Fin 1)) = m ((c : Thread nD τ).loc main_arg5) (ix1 (0 : Fin 1)) := by
  have e : (V m c main_v8 : FVec Ideal S1x1 .f32)
      = shapeCast S1x1 (m ((c : Thread nD τ).loc main_arg5)) Facts₀.shapeCasts_S1_S1x1 := by
    show StableHlo.after hostOps0 (fun b => m (c, b)) (Proc.devRef .tc main_v8) = _
    after_results; rfl
  rw [e]
  refine shapeCast_apply _ _ (ix2 (0 : Fin 1) (0 : Fin 1)) (ix1 (0 : Fin 1)) ?_
  rw [Shape.rowMajor_val_two, Shape.rowMajor_val_one]
  rfl

/-! ## Which block a point reads -/

/-- The block indices of the seven windows at point `t`: row block `t / 8`, hidden tile `t % 8`. -/
theorem block_index : ∀ t : Fin cfg0.N,
    (win0_0.index t (0 : Fin 2) = t.val / 8 ∧ win0_0.index t (1 : Fin 2) = 0)
    ∧ (win0_1.index t (0 : Fin 2) = t.val % 8 ∧ win0_1.index t (1 : Fin 2) = 0)
    ∧ (win0_2.index t (0 : Fin 2) = 0 ∧ win0_2.index t (1 : Fin 2) = t.val % 8)
    ∧ (win0_3.index t (0 : Fin 2) = 0 ∧ win0_3.index t (1 : Fin 2) = t.val % 8)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val / 8 ∧ win0_6.index t (1 : Fin 2) = 0) :=
  (by decide +kernel : ∀ t : Fin grid0.N, _)

/-- The blocks of a point, each at its literal type. -/
abbrev xBlk (c : Dev nD) (t : Fin cfg0.N) : Vec Ideal S256x2048 .bf16 := iblk m c 0 t
abbrev upBlk (c : Dev nD) (t : Fin cfg0.N) : Vec Ideal S1024x2048 .bf16 := iblk m c 1 t
abbrev downBlk (c : Dev nD) (t : Fin cfg0.N) : Vec Ideal S2048x1024 .bf16 := iblk m c 2 t
abbrev upScaleBlk (c : Dev nD) (t : Fin cfg0.N) : Vec Ideal S1x1024 .f32 := iblk m c 3 t
abbrev colScaleBlk (c : Dev nD) (t : Fin cfg0.N) : Vec Ideal S1x2048 .f32 := iblk m c 4 t
abbrev outScaleBlk (c : Dev nD) (t : Fin cfg0.N) : Vec Ideal S1x1 .f32 := iblk m c 5 t

/-- Row `p` of the point's activation block is row `(t / 8) · 256 + p` of the matrix. -/
theorem xBlk_apply (c : Dev nD) (t : Fin cfg0.N) (p : Fin 256) (k : Fin 2048) (r : Fin 4096)
    (hr : r.val = t.val / 8 * 256 + p.val) :
    xBlk m c t (ix2 p k) = (V m c main_v1 : FVec Ideal S4096x2048 .bf16) (ix2 r k) := by
  unfold xBlk iblk
  rw [View.read_apply]
  refine congrArg (V m c main_v1 : FVec Ideal S4096x2048 .bf16) (funext fun a => Fin.ext ?_)
  match a with
  | ⟨0, _⟩ => show win0_0.index t 0 * 256 + 1 * p.val = r.val; rw [(block_index t).1.1, hr]; omega
  | ⟨1, _⟩ => show win0_0.index t 1 * 2048 + 1 * k.val = k.val; rw [(block_index t).1.2]; omega

/-- Row `h` of the point's up-weight block is row `(t % 8) · 1024 + h` of the up signs. -/
theorem upBlk_apply (c : Dev nD) (t : Fin cfg0.N) (h : Fin 1024) (k : Fin 2048) (u : Fin 8192)
    (hu : u.val = t.val % 8 * 1024 + h.val) :
    upBlk m c t (ix2 h k) = (V m c main_v3 : FVec Ideal S8192x2048 .bf16) (ix2 u k) := by
  unfold upBlk iblk
  rw [View.read_apply]
  refine congrArg (V m c main_v3 : FVec Ideal S8192x2048 .bf16) (funext fun a => Fin.ext ?_)
  match a with
  | ⟨0, _⟩ => show win0_1.index t 0 * 1024 + 1 * h.val = u.val; rw [(block_index t).2.1.1, hu]; omega
  | ⟨1, _⟩ => show win0_1.index t 1 * 2048 + 1 * k.val = k.val; rw [(block_index t).2.1.2]; omega

/-- Column `h` of the point's down-weight block is column `(t % 8) · 1024 + h` of the down signs. -/
theorem downBlk_apply (c : Dev nD) (t : Fin cfg0.N) (q : Fin 2048) (h : Fin 1024) (u : Fin 8192)
    (hu : u.val = t.val % 8 * 1024 + h.val) :
    downBlk m c t (ix2 q h) = (V m c main_v5 : FVec Ideal S2048x8192 .bf16) (ix2 q u) := by
  unfold downBlk iblk
  rw [View.read_apply]
  refine congrArg (V m c main_v5 : FVec Ideal S2048x8192 .bf16) (funext fun a => Fin.ext ?_)
  match a with
  | ⟨0, _⟩ => show win0_2.index t 0 * 2048 + 1 * q.val = q.val; rw [(block_index t).2.2.1.1]; omega
  | ⟨1, _⟩ => show win0_2.index t 1 * 1024 + 1 * h.val = u.val; rw [(block_index t).2.2.1.2, hu]; omega

/-- Entry `h` of the point's up-scale block is the scale of hidden unit `(t % 8) · 1024 + h`. -/
theorem upScaleBlk_apply (c : Dev nD) (t : Fin cfg0.N) (h : Fin 1024) (u : Fin 8192)
    (hu : u.val = t.val % 8 * 1024 + h.val) :
    upScaleBlk m c t (ix2 (0 : Fin 1) h) = (V m c main_v6 : FVec Ideal S1x8192 .f32) (ix2 (0 : Fin 1) u) := by
  unfold upScaleBlk iblk
  rw [View.read_apply]
  refine congrArg (V m c main_v6 : FVec Ideal S1x8192 .f32) (funext fun a => Fin.ext ?_)
  match a with
  | ⟨0, _⟩ => show win0_3.index t 0 * 1 + 1 * 0 = 0; rw [(block_index t).2.2.2.1.1]
  | ⟨1, _⟩ => show win0_3.index t 1 * 1024 + 1 * h.val = u.val; rw [(block_index t).2.2.2.1.2, hu]; omega

/-- The column-scale block is the whole one-row matrix. -/
theorem colScaleBlk_apply (c : Dev nD) (t : Fin cfg0.N) (q : Fin 2048) :
    colScaleBlk m c t (ix2 (0 : Fin 1) q) = (V m c main_v7 : FVec Ideal S1x2048 .f32) (ix2 (0 : Fin 1) q) := by
  unfold colScaleBlk iblk
  rw [View.read_apply]
  refine congrArg (V m c main_v7 : FVec Ideal S1x2048 .f32) (funext fun a => Fin.ext ?_)
  match a with
  | ⟨0, _⟩ => show win0_4.index t 0 * 1 + 1 * 0 = 0; rw [(block_index t).2.2.2.2.1.1]
  | ⟨1, _⟩ => show win0_4.index t 1 * 2048 + 1 * q.val = q.val; rw [(block_index t).2.2.2.2.1.2]; omega

/-- The output-scale block is the whole one-entry matrix. -/
theorem outScaleBlk_apply (c : Dev nD) (t : Fin cfg0.N) :
    outScaleBlk m c t (ix2 (0 : Fin 1) (0 : Fin 1)) = (V m c main_v8 : FVec Ideal S1x1 .f32) (ix2 (0 : Fin 1) (0 : Fin 1)) := by
  unfold outScaleBlk iblk
  rw [View.read_apply]
  refine congrArg (V m c main_v8 : FVec Ideal S1x1 .f32) (funext fun a => Fin.ext ?_)
  match a with
  | ⟨0, _⟩ => show win0_5.index t 0 * 1 + 1 * 0 = 0; rw [(block_index t).2.2.2.2.2.1.1]
  | ⟨1, _⟩ => show win0_5.index t 1 * 1 + 1 * 0 = 0; rw [(block_index t).2.2.2.2.2.1.2]

end Cert.TernaryMlp.Blocks

end
-- ==== Proof.MlpTotal.lean ====
/-
  The running total, point by point.

  Within a row block the eight points `8r, 8r + 1, …, 8r + 7` visit the eight tiles of hidden units in order. The
  first stores `0 +` its tile's contribution, each later one adds its tile's contribution to what the point before
  left: so after point `n` entry `(p, q)` of the total is the sum of the contributions of the points from the last
  multiple of eight up to `n` (`total_after`, by the general fact about such running totals). The last point of
  the row block also writes the output block: that complete sum, times the column's scale times the output scale
  (`block_after`).
-/
import proofs.«129542_j51934744543462_1_alg».proof.Proof.MlpSpec
import proofs.«129542_j51934744543462_1_alg».proof.Proof.MlpPayload
import proofs.«129542_j51934744543462_1_alg».proof.Proof.MlpPieces
import proofs.«129542_j51934744543462_1_alg».proof.Proof.MlpBlocks

noncomputable section

namespace Cert.TernaryMlp.Total

open Cert.KernelIdeal Cert.KernelIdeal.Gen
open Idealize.ShloMosaic Idealize.ShloMosaic.TcCoe Idealize.SL.Sem Idealize.ShloMosaic.ValueIdx
open Cert.TernaryMlp Cert.TernaryMlp.Blocks Cert.TernaryMlp.Pieces Cert.TernaryMlp.Payload
open scoped BigOperators

variable (m : (ℓ : Loc nD τ sig) → Buf (Elt Ideal) ℓ)

/-- What the tile of point `n` contributes to entry `(p, q)` of its row block's total, from the point's blocks
    (zero past the end of the grid, where there is no point). -/
def contrib (c : Dev nD) (p : Fin 256) (q : Fin 2048) (n : ℕ) : EReal :=
  if h : n < cfg0.N then
    ∑ u : Fin 1024, max ((∑ k : Fin 2048, xBlk m c ⟨n, h⟩ (ix2 p k) * upBlk m c ⟨n, h⟩ (ix2 u k))
        * upScaleBlk m c ⟨n, h⟩ (ix2 (0 : Fin 1) u)) 0 * downBlk m c ⟨n, h⟩ (ix2 q u)
  else 0

theorem contrib_point (c : Dev nD) (p : Fin 256) (q : Fin 2048) (t : Fin cfg0.N) :
    contrib m c p q t.val
      = ∑ u : Fin 1024, max ((∑ k : Fin 2048, xBlk m c t (ix2 p k) * upBlk m c t (ix2 u k))
          * upScaleBlk m c t (ix2 (0 : Fin 1) u)) 0 * downBlk m c t (ix2 q u) := by
  unfold contrib
  rw [dif_pos t.isLt]

/-- A point on the first tile of its row block leaves `0 +` its contribution. -/
theorem first_total (c : Dev nD) (p : Fin 256) (q : Fin 2048) (t : Fin cfg0.N) (h0 : t.val % 8 = 0) :
    (outsAt0 m c t.val t.isLt).2 (ix2 p q) = 0 + contrib m c p q t.val := by
  have h1 : ¬t.val % 8 = 7 := by omega
  rw [outsAt0_A m c t h0 h1]
  dsimp only
  refine (congrFun (total_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (xBlk m c t) (upBlk m c t) (downBlk m c t) (upScaleBlk m c t) (colScaleBlk m c t) (outScaleBlk m c t)) (ix2 p q)).trans ?_
  rw [step_apply, reset_apply, contrib_point]

/-- Any other point leaves what the point before left, plus its contribution. -/
theorem next_total (c : Dev nD) (p : Fin 256) (q : Fin 2048) (t : Fin cfg0.N) (h0 : ¬t.val % 8 = 0) :
    (outsAt0 m c t.val t.isLt).2 (ix2 p q)
      = (outsAt0 m c (t.val - 1) (Nat.lt_of_le_of_lt (Nat.sub_le _ _) t.isLt)).2 (ix2 p q) + contrib m c p q t.val := by
  by_cases h1 : t.val % 8 = 7
  · rw [outsAt0_C m c t h0 h1]
    dsimp only
    refine (congrFun (total_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (xBlk m c t) (upBlk m c t) (downBlk m c t) (upScaleBlk m c t) (colScaleBlk m c t) (outScaleBlk m c t) (outsAt0 m c (t.val - 1) (Nat.lt_of_le_of_lt (Nat.sub_le _ _) t.isLt)).2) (ix2 p q)).trans ?_
    rw [step_apply, contrib_point]
  · rw [outsAt0_B m c t h0 h1]
    dsimp only
    refine (congrFun (total_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (xBlk m c t) (upBlk m c t) (downBlk m c t) (upScaleBlk m c t) (colScaleBlk m c t) (outScaleBlk m c t) (outsAt0 m c (t.val - 1) (Nat.lt_of_le_of_lt (Nat.sub_le _ _) t.isLt)).2) (ix2 p q)).trans ?_
    rw [step_apply, contrib_point]

/-- After point `n` the total holds the contributions of the points from the last multiple of eight up to `n`. -/
theorem total_after (c : Dev nD) (p : Fin 256) (q : Fin 2048) (n : ℕ) (h : n < cfg0.N) :
    (outsAt0 m c n h).2 (ix2 p q) = ∑ j ∈ Finset.range (n % 8 + 1), contrib m c p q (n - n % 8 + j) :=
  running_total cfg0.N (fun n h => (outsAt0 m c n h).2 (ix2 p q)) (contrib m c p q)
    (fun n h h0 => first_total m c p q ⟨n, h⟩ h0)
    (fun n h hne => next_total m c p q ⟨n + 1, h⟩ hne) n h

/-- At the last tile of a row block the output block is the closing value of the total the point leaves. -/
theorem block_of_total (c : Dev nD) (t : Fin cfg0.N) (h7 : t.val % 8 = 7) :
    (outsAt0 m c t.val t.isLt).1 = k0_pay3 (colScaleBlk m c t) (outScaleBlk m c t) (outsAt0 m c t.val t.isLt).2 := by
  have h0 : ¬t.val % 8 = 0 := by omega
  rw [outsAt0_C m c t h0 h7]
  dsimp only
  exact (block_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h7) (xBlk m c t) (upBlk m c t) (downBlk m c t) (upScaleBlk m c t) (colScaleBlk m c t) (outScaleBlk m c t) (outsAt0 m c (t.val - 1) (Nat.lt_of_le_of_lt (Nat.sub_le _ _) t.isLt)).2).trans
    (congrArg (k0_pay3 (colScaleBlk m c t) (outScaleBlk m c t))
      (total_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h7) (xBlk m c t) (upBlk m c t) (downBlk m c t) (upScaleBlk m c t) (colScaleBlk m c t) (outScaleBlk m c t) (outsAt0 m c (t.val - 1) (Nat.lt_of_le_of_lt (Nat.sub_le _ _) t.isLt)).2).symm)

/-- So entry `(p, q)` of the output block written at the last tile is the sum of the row block's eight
    contributions, times the column's scale times the output scale. -/
theorem block_after (c : Dev nD) (p : Fin 256) (q : Fin 2048) (t : Fin cfg0.N) (h7 : t.val % 8 = 7) :
    (outsAt0 m c t.val t.isLt).1 (ix2 p q)
      = (∑ j : Fin 8, contrib m c p q (t.val - 7 + j.val))
          * (colScaleBlk m c t (ix2 (0 : Fin 1) q) * outScaleBlk m c t (ix2 (0 : Fin 1) (0 : Fin 1))) := by
  rw [block_of_total m c t h7, close_apply, total_after m c p q t.val t.isLt, round_total _ _ h7]

end Cert.TernaryMlp.Total

end
-- ==== Proof.MlpResult.lean ====
/-
  The kernel's result is the specification.

  The call leaves a `[4096, 2048]` matrix whose row `r = b · 2048 + s` is row `(b, s)` of the specification
  (`mat`). It is written block by block: the point at the last hidden tile of row block `r / 256` writes rows
  `256 · (r / 256) …`, and the block it writes is, entry by entry, the sum of its row block's eight contributions
  times the two scales. Each contribution, read off the argument arrays, is the sum of the specification's
  summands over one tile of 1024 hidden units; the eight tiles make up all 8192. The product with the scales is
  re-associated (`x · (ds · os) = (x · ds) · os`, valid for all extended reals). The sixteen flushing points cover
  the matrix, and the closing reshape reads row `(b, s)` back as `(b, s)`.
-/
import proofs.«129542_j51934744543462_1_alg».proof.Proof.MlpTotal

noncomputable section

namespace Cert.TernaryMlp.Result

open Cert.KernelIdeal Cert.KernelIdeal.Gen
open Idealize.ShloMosaic Idealize.ShloMosaic.TcCoe Idealize.SL.Sem Idealize.ShloMosaic.ValueIdx
open Idealize.ShloMosaic.Pipeline (Dat)
open Cert.TernaryMlp Cert.TernaryMlp.Blocks Cert.TernaryMlp.Total
open scoped BigOperators

variable (m : (ℓ : Loc nD τ sig) → Buf (Elt Ideal) ℓ) (ρ : Dev nD → PrngReg)

/-- The specification at the kernel's six argument arrays. -/
abbrev spec (c : Dev nD) : Buf (Elt Ideal) ((c : Thread nD τ).loc main_v10) :=
  out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The matrix the call leaves: row `r` is row `(r / 2048, r % 2048)` of the specification. -/
def mat (c : Dev nD) : Buf (Elt Ideal) ((c : Thread nD τ).loc main_v9) := fun j =>
  spec m c (ix3 (⟨(j 0).val / 2048, by have h : (j 0).val < 4096 := (j 0).isLt; omega⟩ : Fin 2)
    (⟨(j 0).val % 2048, Nat.mod_lt _ (by decide)⟩ : Fin 2048) (j 1))

/-- A point's contribution, read off the argument arrays: for a point on hidden tile `j` whose row `p` is row
    `(b, s)`, the specification's summands over that tile. -/
theorem contrib_eq (c : Dev nD) (p : Fin 256) (q : Fin 2048) (t : Fin cfg0.N) (j : Fin 8) (hj : t.val % 8 = j.val)
    (r : Fin 4096) (hr : r.val = t.val / 8 * 256 + p.val) (b : Fin 2) (s : Fin 2048) (hbs : r.val = b.val * 2048 + s.val) :
    contrib m c p q t.val
      = ∑ u : Fin 1024, term (m ((c : Thread nD τ).loc main_arg0)) (m ((c : Thread nD τ).loc main_arg1)) (m ((c : Thread nD τ).loc main_arg2)) (m ((c : Thread nD τ).loc main_arg3)) b s q (unitOf j u) := by
  rw [contrib_point]
  refine Finset.sum_congr rfl fun u _ => ?_
  have hu : (unitOf j u).val = t.val % 8 * 1024 + u.val := by rw [unitOf_val, hj]; omega
  unfold term
  rw [upScaleBlk_apply m c t u (unitOf j u) hu, up_scale_array, downBlk_apply m c t q u (unitOf j u) hu, down_array]
  refine congrArg (fun z => max (z * _) 0 * _) (Finset.sum_congr rfl fun k _ => ?_)
  rw [xBlk_apply m c t p k r hr, x_array m c r k b s hbs, upBlk_apply m c t u k (unitOf j u) hu, up_array]

/-- Entry `(p, q)` of the block written at the last tile of a row block is the specification there. -/
theorem block_entry (c : Dev nD) (p : Fin 256) (q : Fin 2048) (t : Fin cfg0.N) (h7 : t.val % 8 = 7)
    (r : Fin 4096) (hr : r.val = t.val / 8 * 256 + p.val) (b : Fin 2) (s : Fin 2048) (hbs : r.val = b.val * 2048 + s.val) :
    (outsAt0 m c t.val t.isLt).1 (ix2 p q) = spec m c (ix3 b s q) := by
  have hN : cfg0.N = 128 := N_0
  rw [block_after m c p q t h7, colScaleBlk_apply, col_scale_array, outScaleBlk_apply, out_scale_array]
  have hc : ∀ j : Fin 8, contrib m c p q (t.val - 7 + j.val)
      = ∑ u : Fin 1024, term (m ((c : Thread nD τ).loc main_arg0)) (m ((c : Thread nD τ).loc main_arg1)) (m ((c : Thread nD τ).loc main_arg2)) (m ((c : Thread nD τ).loc main_arg3)) b s q (unitOf j u) := fun j =>
    contrib_eq m c p q ⟨t.val - 7 + j.val, by have := t.isLt; have := j.isLt; omega⟩ j
      (by show (t.val - 7 + j.val) % 8 = j.val; have := j.isLt; omega) r
      (by show r.val = (t.val - 7 + j.val) / 8 * 256 + p.val; rw [hr]; have := j.isLt; omega) b s hbs
  rw [Finset.sum_congr rfl fun j _ => hc j, sum_tiles, ← mul_assoc]
  rfl

/-- Row block and hidden tile of each point, for the output window. -/
theorem out_index (t : Fin cfg0.N) : win0_6.index t (0 : Fin 2) = t.val / 8 ∧ win0_6.index t (1 : Fin 2) = 0 :=
  (block_index t).2.2.2.2.2.2

/-- What a flushing point writes back is its block of the matrix. -/
theorem flushed_eq (c : Dev nD) (t : Fin cfg0.N) (hf : (cfg0.win 6).flush t = true) :
    (dats m 0 c).flushed 6 t = ((cfg0.win 6).blk t).view.read (Elt Ideal) (mat m c) := by
  have h7 : t.val % 8 = 7 := (flush0_6 t).mp hf
  have hN : cfg0.N = 128 := N_0
  have e : (dats m 0 c).flushed 6 t = (outsAt0 m c t.val t.isLt).1 := by
    show (cfg0.win 6).cut (grid0.coords t) ((dats m 0 c).after 6 t) = _
    rw [after0_6]
    rfl
  rw [e]
  funext y
  obtain ⟨p, q, rfl⟩ : ∃ (p : Fin 256) (q : Fin 2048), y = ix2 p q := ⟨y 0, y 1, eq_ix2 y⟩
  rw [View.read_apply]
  have hp := p.isLt
  have ht := t.isLt
  have hrow : (((cfg0.win 6).blk t).view.emb (ix2 p q) (0 : Fin 2)).val = t.val / 8 * 256 + p.val := by
    show win0_6.index t 0 * 256 + 1 * p.val = _; rw [(out_index t).1]; omega
  have hcol : (((cfg0.win 6).blk t).view.emb (ix2 p q) (1 : Fin 2)).val = q.val := by
    show win0_6.index t 1 * 2048 + 1 * q.val = _; rw [(out_index t).2]; omega
  refine (block_entry m c p q t h7 ⟨t.val / 8 * 256 + p.val, by omega⟩ rfl
    ⟨(t.val / 8 * 256 + p.val) / 2048, by omega⟩ ⟨(t.val / 8 * 256 + p.val) % 2048, Nat.mod_lt _ (by decide)⟩
    (by show t.val / 8 * 256 + p.val = (t.val / 8 * 256 + p.val) / 2048 * 2048 + (t.val / 8 * 256 + p.val) % 2048; omega)).trans ?_
  unfold mat
  refine congrArg (spec m c) (funext fun a => Fin.ext ?_)
  match a with
  | ⟨0, _⟩ => show (t.val / 8 * 256 + p.val) / 2048 = (((cfg0.win 6).blk t).view.emb (ix2 p q) (0 : Fin 2)).val / 2048; rw [hrow]
  | ⟨1, _⟩ => show (t.val / 8 * 256 + p.val) % 2048 = (((cfg0.win 6).blk t).view.emb (ix2 p q) (0 : Fin 2)).val % 2048; rw [hrow]
  | ⟨2, _⟩ => show q.val = (((cfg0.win 6).blk t).view.emb (ix2 p q) (1 : Fin 2)).val; rw [hcol]

/-- The sixteen flushed blocks cover the matrix: row `r` is written by the last point of row block `r / 256`. -/
theorem covered (c : Dev nD) (i : ((cfg0.win 6).arr.view.loc (c.tc : Thread nD τ)).2.ty.Idx) :
    ∃ t : Fin cfg0.N, (cfg0.win 6).flush t = true ∧ i ∈ ((cfg0.win 6).blk t).view.set := by
  have hN : cfg0.N = 128 := N_0
  have h0 : (i 0 : Nat) < 4096 := (i 0).isLt
  have h1 : (i 1 : Nat) < 2048 := (i 1).isLt
  have hlt : (i 0).val / 256 * 8 + 7 < cfg0.N := by omega
  refine ⟨⟨(i 0).val / 256 * 8 + 7, hlt⟩, (flush0_6 _).mpr (by show ((i 0).val / 256 * 8 + 7) % 8 = 7; omega), ?_⟩
  show i ∈ ((View.whole main_v9).slice (win0_6.rect ⟨(i 0).val / 256 * 8 + 7, hlt⟩)).set
  rw [View.set_slice_whole, Rect.mem_set_unit]
  intro a
  match a with
  | ⟨0, _⟩ =>
    show win0_6.index ⟨(i 0).val / 256 * 8 + 7, hlt⟩ 0 * 256 ≤ (i 0 : Nat)
      ∧ (i 0 : Nat) < win0_6.index ⟨(i 0).val / 256 * 8 + 7, hlt⟩ 0 * 256 + 256
    rw [(out_index ⟨(i 0).val / 256 * 8 + 7, hlt⟩).1]
    show ((i 0).val / 256 * 8 + 7) / 8 * 256 ≤ (i 0 : Nat) ∧ (i 0 : Nat) < ((i 0).val / 256 * 8 + 7) / 8 * 256 + 256
    omega
  | ⟨1, _⟩ =>
    show win0_6.index ⟨(i 0).val / 256 * 8 + 7, hlt⟩ 1 * 2048 ≤ (i 1 : Nat)
      ∧ (i 1 : Nat) < win0_6.index ⟨(i 0).val / 256 * 8 + 7, hlt⟩ 1 * 2048 + 2048
    rw [(out_index ⟨(i 0).val / 256 * 8 + 7, hlt⟩).2]
    omega

/-- So the call's result array ends holding the matrix. -/
theorem final (c : Dev nD) : (dats m 0 c).arrAt 6 cfg0.N = mat m c :=
  (dats m 0 c).arrAt_eq_of_cover 6 (mat m c) (flushed_eq m c) (covered c)

/-- After the closing reshape the program's result is the specification. -/
theorem tail_eq (c : Dev nD) :
    Pipeline.afterTail₀ cfgs (dats m) 0 (V0 m) [hostOps1] c main_v10 = spec m c := by
  unfold Pipeline.afterTail₀
  show StableHlo.after hostOps1 _ (Proc.devRef .tc main_v10) = _
  after_results
  rw [(Pipeline.withArrays_arr spec0 launch0.win.arr_inj c _ _ 6).trans (final m c)]
  funext i
  obtain ⟨b, s, d, rfl⟩ : ∃ (b : Fin 2) (s : Fin 2048) (d : Fin 2048), i = ix3 b s d := ⟨i 0, i 1, i 2, eq_ix3 i⟩
  have hb := b.isLt
  have hs := s.isLt
  refine (shapeCast_apply _ _ (ix3 b s d) (ix2 (⟨b.val * 2048 + s.val, by omega⟩ : Fin 4096) d) ?_).trans ?_
  · rw [Shape.rowMajor_val_two, Shape.rowMajor_val_three]
    rfl
  · unfold mat
    refine congrArg (spec m c) (funext fun a => Fin.ext ?_)
    match a with
    | ⟨0, _⟩ => show (b.val * 2048 + s.val) / 2048 = b.val; omega
    | ⟨1, _⟩ => show (b.val * 2048 + s.val) % 2048 = s.val; omega
    | ⟨2, _⟩ => rfl

/-- The run of the idealized kernel: its result at the specification, its arguments unchanged. -/
theorem run : θ_run defs (onTc (τ := τ) (main (F := Ideal))) ⟨m, fun _ => 0, ρ⟩ (fun r => ∀ c : Dev nD,
      r.2.mem ((c.tc : Thread nD τ).loc main_v10) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.TernaryMlp.Result

end
-- ==== Proof.lean ====
/-
  A two-layer perceptron with sign-valued weights: the tiled kernel against the plain formula.

  Both programs compute, for every row `(b, s)` of the activations and every output column `d`,
      ((∑ₕ max ((∑ₖ X(b,s,k) · sign Wu(h,k)) · us(h)) 0 · sign Wd(d,h)) · ds(d)) · os(0)
  on the extended reals (Proof/MlpSpec.lean). The reference forms the two contractions whole. The kernel walks a grid of
  16 row blocks by 8 tiles of 1024 hidden units, keeps a running total per row block that restarts at the first tile
  and is extended at each later one, and at the eighth tile writes the total times `ds(d) · os(0)`. The eight tile
  sums make up the sum over all hidden units, and `x · (ds · os) = (x · ds) · os`: only commutativity and
  associativity of sum and product are used, which hold at the infinities too, so the precondition is never opened.
  The kernel's idealization rewrote no operation, so the conjunct relating the kernel to it is trivially true.
-/
import proofs.«129542_j51934744543462_1_alg».proof.Defs
import proofs.«129542_j51934744543462_1_alg».proof.Proof.Gen.Kernel
import proofs.«129542_j51934744543462_1_alg».proof.Proof.Gen.Kernel.Skeleton
import proofs.«129542_j51934744543462_1_alg».proof.Proof.Gen.Kernel.Launch
import proofs.«129542_j51934744543462_1_alg».proof.Proof.Gen.Kernel.Points
import proofs.«129542_j51934744543462_1_alg».proof.Proof.Gen.Kernel.Frame
import proofs.«129542_j51934744543462_1_alg».proof.Proof.Gen.KernelIdeal
import proofs.«129542_j51934744543462_1_alg».proof.Proof.Gen.KernelIdeal.Skeleton
import proofs.«129542_j51934744543462_1_alg».proof.Proof.Gen.KernelIdeal.Launch
import proofs.«129542_j51934744543462_1_alg».proof.Proof.Gen.KernelIdeal.Points
import proofs.«129542_j51934744543462_1_alg».proof.Proof.Gen.KernelIdeal.Frame
import proofs.«129542_j51934744543462_1_alg».proof.Proof.Gen.ReferenceIdeal
import proofs.«129542_j51934744543462_1_alg».proof.Proof.Gen.ReferenceIdeal.Run
import proofs.«129542_j51934744543462_1_alg».proof.Proof.Gen.ReferenceIdeal.Read
import proofs.«129542_j51934744543462_1_alg».proof.Proof.Gen.Pre_finite_inputs
import proofs.«129542_j51934744543462_1_alg».proof.Proof.MlpReference
import proofs.«129542_j51934744543462_1_alg».proof.Proof.MlpResult
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of array operations: it runs, and writes no argument. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the idealized kernel and the reference both end at the specification of those
    arguments. -/
theorem algebraic : Cert.algebraic_KernelIdeal_ReferenceIdeal := by
  intro m ρ m' ρ' _ hagree
  refine ⟨fun c => Cert.TernaryMlp.Result.spec m c, Cert.TernaryMlp.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v13_eq _ _ _ _ _ _).trans (Cert.TernaryMlp.Reference.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
